-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) (main_arg2 : FVec F S8192 .f32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 32000#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x32000 : Shape := ⟨2, ![8192, 32000]⟩
abbrev S8192 : Shape := ⟨1, ![8192]⟩
abbrev S8192x1 : Shape := ⟨2, ![8192, 1]⟩
abbrev S256x3200 : Shape := ⟨2, ![256, 3200]⟩
abbrev S256x1 : Shape := ⟨2, ![256, 1]⟩
abbrev S256 : Shape := ⟨1, ![256]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192, .f32⟩
  | .hbm, ⟨3, _⟩ => ⟨S8192x1, .i32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x3200, .f32⟩
  | .local _ .vmem, ⟨1, _⟩ => ⟨S256x3200, .f32⟩
  | .local _ .vmem, ⟨2, _⟩ => ⟨S256x1, .i32⟩
  | .local _ .vmem, ⟨3, _⟩ => ⟨S256x1, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 10], ![false, false]⟩

def k0_cond2 (i : grid0.Coords) : BitVec 1 :=
  let arg1 : BitVec 32 := BitVec.ofNat 32 (i 1).val
  let c9_i32 : BitVec 32 := 9#32
  let v24 : BitVec 1 := Scalar.cmpi .eq arg1 c9_i32
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S8192x1 : S8192.ShapeCasts S8192x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x3200_d1_w32 : S256x3200.Iotas .tc 32 [1]
  broadcasts_S256x1_S256x3200 : S256x1.Broadcasts S256x3200
  inb_S256x3200_S256x3200_0_0 : ∀ a, (![0, 0] : Fin 2 → Nat) a + S256x3200.size a ≤ S256x3200.size a
  h_S256x3200 : 0 < S256x3200.numel
  reduces_S256x3200_S256 : S256x3200.Reduces [1] S256
  shapeCasts_S256_S256x1 : S256.ShapeCasts S256x1
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3200.size a ≤ S8192x32000.size a
  hwx0_0 : ∀ i : grid0.Coords, EltTy.bits .f32 = 32 ∨ (Rect.block (s := S8192x32000) S256x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .i32 = 32 ∨ (Rect.block (s := S8192x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

abbrev win0_0 : Pipeline.Window sig grid0 :=
  Pipeline.Window.ofSpec (Memref.whole main_arg0) S256x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192, .f32⟩
  | .hbm, ⟨3, _⟩ => ⟨S8192x1, .i32⟩
  | .hbm, ⟨4, _⟩ => ⟨S_, .i32⟩
  | .hbm, ⟨5, _⟩ => ⟨S8192x1, .i32⟩
  | .hbm, ⟨6, _⟩ => ⟨S8192x1, .i1⟩
  | .hbm, ⟨7, _⟩ => ⟨S_, .i32⟩
  | .hbm, ⟨8, _⟩ => ⟨S8192x1, .i32⟩
  | .hbm, ⟨9, _⟩ => ⟨S8192x1, .i32⟩
  | .hbm, ⟨10, _⟩ => ⟨S8192x1, .i32⟩
  | .hbm, ⟨11, _⟩ => ⟨S8192x1x1, .i32⟩
  | .hbm, ⟨12, _⟩ => ⟨S1, .i32⟩
  | .hbm, ⟨13, _⟩ => ⟨S_, .i32⟩
  | .hbm, ⟨14, _⟩ => ⟨S8192x1x1, .i32⟩
  | .hbm, ⟨15, _⟩ => ⟨S8192x1x1, .i1⟩
  | .hbm, ⟨16, _⟩ => ⟨S1x1x1, .i32⟩
  | .hbm, ⟨17, _⟩ => ⟨S8192x1x1, .i32⟩
  | .hbm, ⟨18, _⟩ => ⟨S8192x1x1, .i1⟩
  | .hbm, ⟨19, _⟩ => ⟨S8192x1x1, .i1⟩
  | .hbm, ⟨20, _⟩ => ⟨S_, .i1⟩
  | .hbm, ⟨21, _⟩ => ⟨S8192x1, .i1⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  shapeCasts_S8192x1_S8192 : S8192x1.ShapeCasts S8192
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.Spec.lean ====
/-
  The function both programs compute, stated once over the argument arrays.

  `p : [8192, 32000]` holds a row of probabilities per sample, `t : [8192]` the sample's label (a 32-bit word naming a
  column) and `r : [8192]` its reward.  Under the precondition every label lies in `[0, 32000)`.  Row `n` contributes
  `p[n, t n] · r n`, and the loss is minus the mean of the 8192 contributions: `-((0 + ∑ n, p[n, t n] · r n) / 8192)`.
  The zero the sum starts from and the divisor 8192 are kept as the words both programs print, so that neither side's
  proof evaluates a literal.
-/
import Idealize.ShloMosaic.PureOps.Ideal
import Idealize.ShloMosaic.Lib.ValueIdx

noncomputable section

open scoped BigOperators

namespace Cert.PickLoss

open Idealize.ShloMosaic Idealize.ShloMosaic.ValueIdx

/-- The probabilities' shape, the labels' and rewards' shape, and the scalar shape. -/
abbrev SP : Shape := ⟨2, ![8192, 32000]⟩
abbrev SV : Shape := ⟨1, ![8192]⟩
abbrev S0 : Shape := ⟨0, ![]⟩

/-- Every label names a column of the table: read as a natural number its word is below 32000 (so it is
    non-negative as a signed word too). -/
def InRange (t : SV.Idx → BitVec 32) : Prop := ∀ n : Fin 8192, (t (ix1 n)).toNat < 32000

/-- The column row `n`'s label names (kept inside the table whatever the word). -/
def colOf (t : SV.Idx → BitVec 32) (n : Fin 8192) : Fin 32000 := ⟨min (t (ix1 n)).toNat 31999, by omega⟩

theorem colOf_val {t : SV.Idx → BitVec 32} (h : InRange t) (n : Fin 8192) : (colOf t n).val = (t (ix1 n)).toNat :=
  Nat.min_eq_left (Nat.le_of_lt_succ (h n))

/-- Row `n`'s contribution: the probability at the labelled column times the row's reward. -/
def rowTerm (p : SP.Idx → EReal) (t : SV.Idx → BitVec 32) (r : SV.Idx → EReal) (n : Fin 8192) : EReal :=
  p (ix2 n (colOf t n)) * r (ix1 n)

/-- Minus the mean of a total: `-((0 + s) / 8192)`, in the host's operations on the printed words. -/
def negMean (s : EReal) : S0.Idx → EReal := fun _ =>
  FloatOps.hostNegf (F := Ideal) (φ := .f32)
    (FloatOps.hostDivf (F := Ideal) (φ := .f32) (FloatOps.ofBits (F := Ideal) .f32 0x00000000#32 + s)
      (FloatOps.ofBits (F := Ideal) .f32 0x46000000#32))

/-- THE LOSS: minus the mean of the rows' contributions. -/
def loss (p : SP.Idx → EReal) (t : SV.Idx → BitVec 32) (r : SV.Idx → EReal) : S0.Idx → EReal :=
  negMean (∑ n : Fin 8192, rowTerm p t r n)

/-- A sum over the indices of a vector is the sum over its one coordinate. -/
theorem sum_idx1 {M : Type*} [AddCommMonoid M] {n : Nat} (f : (⟨1, ![n]⟩ : Shape).Idx → M) :
    ∑ j, f j = ∑ a : Fin n, f (ix1 a) :=
  Fintype.sum_equiv ⟨fun j => (j 0 : Fin n), ix1, fun j => (eq_ix1 j).symm, fun _ => rfl⟩ _ _
    (fun j => congrArg f (eq_ix1 j))

/-- A sum over the indices of a column `[n, 1]` is the sum over its rows. -/
theorem sum_idx_col {M : Type*} [AddCommMonoid M] {n : Nat} (f : (⟨2, ![n, 1]⟩ : Shape).Idx → M) :
    ∑ j, f j = ∑ a : Fin n, f (ix2 a (0 : Fin 1)) := by
  rw [sum_idx2]
  exact Finset.sum_congr rfl fun a _ => Fin.sum_univ_one _

end Cert.PickLoss

end
-- ==== Proof.PreRange.lean ====
/-
  The precondition puts every label in range.

  The printed precondition is the conjunction of three tests, each an `and` over a whole array: every probability
  finite, every reward finite, and every label `t n` with `0 ≤ t n` and `t n < 32000` as signed words.  From its
  last conjunct: each label's word, read as a natural number, is below 32000.
-/
import proofs.«409961_j52321291600268_1_alg».proof.Proof.Spec
import proofs.«409961_j52321291600268_1_alg».proof.Pre_finite_inputs
import Idealize.ShloMosaic.Lib.ReduceAll
import Idealize.ShloMosaic.Lib.StableHlo.Predicate

noncomputable section

namespace Cert.PickLoss

open Idealize.ShloMosaic Idealize.ShloMosaic.ValueIdx

/-- The scalar shape has one index. -/
private instance : Subsingleton Cert.Pre_finite_inputs.S_.Idx := ⟨fun _ _ => funext fun d => d.elim0⟩

/-- A 32-bit word whose signed reading lies in `[0, 32000)` has its unsigned reading below 32000: a non-negative
    signed reading is the unsigned one. -/
private theorem toNat_lt_of_signed {a : BitVec 32} (h0 : (0#32 : BitVec 32).toInt ≤ a.toInt)
    (h1 : a.toInt < (32000#32 : BitVec 32).toInt) : a.toNat < 32000 := by
  have e0 : (0#32 : BitVec 32).toInt = 0 := by decide
  have e1 : (32000#32 : BitVec 32).toInt = 32000 := by decide
  rw [e0] at h0
  rw [e1] at h1
  have ha := a.isLt
  rw [BitVec.toInt_eq_toNat_cond] at h0 h1
  by_cases hc : 2 * a.toNat < 2 ^ 32
  · rw [if_pos hc] at h1; omega
  · rw [if_neg hc] at h0; omega

theorem inRange_of_pre [Cert.Pre_finite_inputs.Facts] (p : SP.Idx → EReal) (t : SV.Idx → BitVec 32) (r : SV.Idx → EReal)
    (h : Cert.Pre_finite_inputs.fn (F := Ideal) p t r = fun _ => 1#1) : InRange t := by
  intro n
  -- the predicate at its one index is the `and` of the two finiteness tests with the label test: keep the last
  have h0 := congrFun h ValueIdx.ix0
  have hC := (IntOp.andi_eq_one.1 h0).2
  clear h0 h
  -- the label test is an `and` over all 8192 entries that came out 1: entry `n` is 1
  have hn := Host.reduce_andi_all _ _ _ _ _ hC (ix1 n)
  clear hC
  -- entry `n` is the `and` of the two signed compares of `t n` with the broadcast constants 0 and 32000
  obtain ⟨hge, hlt⟩ := IntOp.andi_eq_one.1 hn
  have hge' := IntOp.cmpi_sge.1 hge
  have hlt' := IntOp.cmpi_slt.1 hlt
  rw [StableHlo.Predicate.bcast_scalar (h0 := Cert.Pre_finite_inputs.Facts.h_S_)] at hge' hlt'
  exact toNat_lt_of_signed hge' hlt'

end Cert.PickLoss

end
-- ==== Proof.RefValue.lean ====
/-
  The reference's result is the loss.

  The reference wraps a negative label by adding 32000, tests the wrapped label against `[0, 31999]`, gathers
  `p[n, label]` (the gather clamps the label into the table) and replaces the entry by a fill value where the test
  fails; then it multiplies by the reward, sums, divides by 8192 and negates.  With every label in `[0, 32000)` the
  wrap is not taken, the test holds, and the clamp does nothing: row `n` contributes `p[n, t n] · r n`.
-/
import proofs.«409961_j52321291600268_1_alg».proof.Proof.Spec
import proofs.«409961_j52321291600268_1_alg».proof.Proof.Gen.ReferenceIdeal.Read
import Idealize.ShloMosaic.Lib.StableHlo.Predicate

noncomputable section

open scoped BigOperators

namespace Cert.PickLoss.Ref

open Idealize.ShloMosaic Idealize.ShloMosaic.ValueIdx Cert.PickLoss

section Rows

open Cert.ReferenceIdeal Cert.ReferenceIdeal.Read Idealize.ShloMosaic.StableHlo.Predicate

/-- A left fold by "and" from the bit 1 over entries that are all 1 is 1. -/
private theorem foldl_andi_ones {ι : Type} (f : ι → BitVec 1) :
    ∀ (l : List ι), (∀ i ∈ l, f i = 1#1) → l.foldl (fun r i => IntOp.andi r (f i)) 1#1 = 1#1
  | [], _ => rfl
  | a :: l, hl => by
    rw [List.foldl_cons, hl a (List.mem_cons_self ..)]
    exact foldl_andi_ones f l (fun i hi => hl i (List.mem_cons_of_mem _ hi))

/-- The wrapped label at row n is the label itself: a label below 32000 is not negative as a signed word. -/
private theorem label [Cert.ReferenceIdeal.Facts] (t : SV.Idx → BitVec 32) (h : InRange t) (n : Fin 8192) :
    val_main_call0_v5 (F := Ideal) t (ix3 n (0 : Fin 1) (0 : Fin 1)) = t (ix1 n) := by
  have hn := h n
  have i5 : idx_main_call0_v5 (ix3 n (0 : Fin 1) (0 : Fin 1)) = ix2 n (0 : Fin 1) := by
    funext a
    match a with
    | ⟨0, _⟩ => exact Fin.ext (by show ((n.val * 1 + 0) * 1 + 0) / 1 = n.val; omega)
    | ⟨1, _⟩ => rfl
  have i0 : idx_main_v0 (ix2 n (0 : Fin 1)) = ix1 n := by
    funext a
    match a with
    | ⟨0, _⟩ => rfl
  rw [val_main_call0_v5_apply, i5, val_main_call0_v4_apply, val_main_call0_v1_apply, val_main_v0_apply, i0,
    val_main_call0_v0_apply, val_main_call0_c_apply]
  have hlt : ¬ IntOp.cmpi .slt (t (ix1 n)) 0#32 = 1#1 := by
    rw [slt_iff_toNat (by omega) (by decide)]
    exact Nat.not_lt_zero _
  rw [eq_zero_of_ne_one hlt, select_zero]

/-- Both range tests hold at every entry: the label is at least 0 and at most 31999. -/
private theorem inTable [Cert.ReferenceIdeal.Facts] (t : SV.Idx → BitVec 32) (h : InRange t)
    (i : S8192x1x1.Idx) :
    val_main_call0_v11 (F := Ideal) t i = 1#1 := by
  obtain ⟨n, b, c, rfl⟩ : ∃ (n : Fin 8192) (b c : Fin 1), i = ix3 n b c := ⟨i 0, i 1, i 2, eq_ix3 i⟩
  obtain rfl : b = 0 := Subsingleton.elim _ _
  obtain rfl : c = 0 := Subsingleton.elim _ _
  have hn := h n
  rw [val_main_call0_v11_apply, val_main_call0_v7_apply, val_main_call0_v10_apply, label t h n,
    val_main_call0_v6_apply, val_main_call0_c_2_apply, val_main_call0_v9_apply, val_main_call0_v8_apply,
    val_main_call0_c_1_apply]
  have hge : IntOp.cmpi .sge (t (ix1 n)) 0#32 = 1#1 :=
    (sge_iff_toNat (by omega) (by decide)).2 (Nat.zero_le _)
  have hle : IntOp.cmpi .sle (t (ix1 n)) 31999#32 = 1#1 :=
    (sle_iff_toNat (by omega) (by decide)).2 (by show (t (ix1 n)).toNat ≤ 31999; omega)
  rw [hge, hle]
  rfl

/-- The "and" over the axis of extent one, started from the bit 1, is 1 at every row. -/
private theorem allInTable [Cert.ReferenceIdeal.Facts] (t : SV.Idx → BitVec 32) (h : InRange t)
    (j : S8192x1.Idx) :
    val_main_call0_v12 (F := Ideal) t j = 1#1 := by
  unfold val_main_call0_v12
  rw [Host.reduce_eq_foldl]
  exact foldl_andi_ones _ _ (fun i _ => inTable t h i)

/-- The gather read at row n: axis 0 of the table is a batching axis (its coordinate is the row), axis 1 is
    the start-indexed, collapsed axis (its coordinate is the row's start index read signed, clamped into the table). -/
private theorem gather_row [Cert.ReferenceIdeal.Facts] {α : Type} (x : S8192x32000.Idx → α) (idx : IVec S8192x1x1 32)
    (n : Fin 8192) :
    Host.gather gather_S8192x32000_S8192x1x1_S8192x1_n_1_0_0_1_2_11 x idx (ix2 n (0 : Fin 1))
      = x (ix2 n (⟨min (idx (ix3 n (0 : Fin 1) (0 : Fin 1))).toInt.toNat 31999, by omega⟩ : Fin 32000)) := by
  unfold Host.gather
  congr 1
  funext a
  refine Fin.ext ?_
  match a with
  | ⟨0, _⟩ =>
    show gather_S8192x32000_S8192x1x1_S8192x1_n_1_0_0_1_2_11.start (ix2 n (0 : Fin 1)) idx 0
      + gather_S8192x32000_S8192x1x1_S8192x1_n_1_0_0_1_2_11.batchCoord (ix2 n (0 : Fin 1)) 0
      + gather_S8192x32000_S8192x1x1_S8192x1_n_1_0_0_1_2_11.offCoord (ix2 n (0 : Fin 1)) 0 = n.val
    have hb : (0 : Fin 2) ∈ gather_S8192x32000_S8192x1x1_S8192x1_n_1_0_0_1_2_11.operandBatchingDims :=
      List.mem_singleton.mpr rfl
    rw [GatherDims.start_batching _ _ _ _ hb,
      GatherDims.offCoord_eq_zero _ _ _ (fun hk => ((GatherDims.mem_sKept _ _).mp hk).2 hb)]
    show 0 + gather_S8192x32000_S8192x1x1_S8192x1_n_1_0_0_1_2_11.batchCoord (ix2 n (0 : Fin 1)) 0 + 0 = n.val
    rw [Nat.zero_add, Nat.add_zero]
    rfl
  | ⟨1, _⟩ =>
    show gather_S8192x32000_S8192x1x1_S8192x1_n_1_0_0_1_2_11.start (ix2 n (0 : Fin 1)) idx 1
      + gather_S8192x32000_S8192x1x1_S8192x1_n_1_0_0_1_2_11.batchCoord (ix2 n (0 : Fin 1)) 1
      + gather_S8192x32000_S8192x1x1_S8192x1_n_1_0_0_1_2_11.offCoord (ix2 n (0 : Fin 1)) 1
      = min (idx (ix3 n (0 : Fin 1) (0 : Fin 1))).toInt.toNat 31999
    have hb : (1 : Fin 2) ∉ gather_S8192x32000_S8192x1x1_S8192x1_n_1_0_0_1_2_11.operandBatchingDims :=
      fun hmem => absurd (List.mem_singleton.mp hmem) (by decide)
    have hc : (1 : Fin 2) ∈ gather_S8192x32000_S8192x1x1_S8192x1_n_1_0_0_1_2_11.collapsedSliceDims :=
      List.mem_singleton.mpr rfl
    have hm : (1 : Fin 2) ∈ gather_S8192x32000_S8192x1x1_S8192x1_n_1_0_0_1_2_11.startIndexMap :=
      List.mem_singleton.mpr rfl
    rw [GatherDims.batchCoord_eq_zero _ _ _ hb,
      GatherDims.offCoord_eq_zero _ _ _ (fun hk => ((GatherDims.mem_sKept _ _).mp hk).1 hc), Nat.add_zero]
    unfold GatherDims.start
    rw [dif_pos hm]
    have hsi : gather_S8192x32000_S8192x1x1_S8192x1_n_1_0_0_1_2_11.siIdx (ix2 n (0 : Fin 1))
        ⟨List.idxOf (1 : Fin 2) gather_S8192x32000_S8192x1x1_S8192x1_n_1_0_0_1_2_11.startIndexMap,
          List.idxOf_lt_length_iff.2 hm⟩ = ix3 n (0 : Fin 1) (0 : Fin 1) := by
      funext b
      refine Fin.ext ?_
      match b with
      | ⟨0, _⟩ => rfl
      | ⟨1, _⟩ => rfl
      | ⟨2, _⟩ => rfl
    rw [hsi]
    rfl

/-- Row n of the gathered column, read as a vector entry: the probability at the labelled column. -/
private theorem row [Cert.ReferenceIdeal.Facts] (p : SP.Idx → EReal) (t : SV.Idx → BitVec 32) (h : InRange t)
    (n : Fin 8192) :
    val_main_v2 (F := Ideal) p t (ix1 n) = p (ix2 n (colOf t n)) := by
  have i2 : idx_main_v2 (ix1 n) = ix2 n (0 : Fin 1) := by
    funext a
    match a with
    | ⟨0, _⟩ => exact Fin.ext (by show n.val / 1 = n.val; omega)
    | ⟨1, _⟩ => rfl
  -- the label read signed is its value as a natural number
  have hi : (t (ix1 n)).toInt.toNat = (t (ix1 n)).toNat := by
    rw [toInt_eq_toNat_of_lt (by have := h n; omega)]
    exact Int.toNat_natCast _
  rw [val_main_v2_apply, i2, val_main_v1_apply, allInTable t h, select_one]
  unfold val_main_call0_v13
  rw [gather_row]
  exact congrArg (fun c => p (ix2 n c)) (Fin.ext (by
    show min (val_main_call0_v5 (F := Ideal) t (ix3 n (0 : Fin 1) (0 : Fin 1))).toInt.toNat 31999
      = min (t (ix1 n)).toNat 31999
    rw [label t h n, hi]))

end Rows

theorem value [Cert.ReferenceIdeal.Facts] (p : SP.Idx → EReal) (t : SV.Idx → BitVec 32) (r : SV.Idx → EReal) (h : InRange t) :
    Cert.ReferenceIdeal.Read.val_main_v6 (F := Ideal) p t r = loss p t r := by
  funext i
  -- the total: the sum over the vector's indices is the sum over the rows of the rows' contributions
  have hs : ∑ j : Cert.ReferenceIdeal.S8192.Idx, Cert.ReferenceIdeal.Read.val_main_v3 (F := Ideal) p t r j
      = ∑ n : Fin 8192, rowTerm p t r n := by
    rw [sum_idx1]
    exact Finset.sum_congr rfl fun n _ => by rw [Cert.ReferenceIdeal.Read.val_main_v3_apply, row p t h n]; rfl
  -- minus the mean: the same negate-of-divide on the same two printed words
  rw [Cert.ReferenceIdeal.Read.val_main_v6_apply, Cert.ReferenceIdeal.Read.val_main_v5_apply,
    Cert.ReferenceIdeal.Read.val_main_v4_apply, Cert.ReferenceIdeal.Read.val_main_cst_apply,
    Cert.ReferenceIdeal.Read.val_main_cst_0_apply, hs]
  rfl

end Cert.PickLoss.Ref

end
-- ==== Proof.Pieces.lean ====
/-
  What one grid point leaves in the accumulator and in the output block, as the body's stored values.

  The body stores whole blocks.  At the first column tile of a row block it stores the reset value and then the
  update computed over that reset value; at every later tile it stores the update computed over what the tile
  before left; at the last tile it also copies the accumulator, as just updated, into the output block.  Reading a
  whole block back after a store of the whole block gives the stored value, so in each case the accumulator ends at
  the update term, over the reset value in the first case and over the previous contents otherwise, and the output
  block of the last tile is that same term.
-/
import proofs.«409961_j52321291600268_1_alg».proof.Proof.Gen.KernelIdeal.Frame
import Idealize.ShloMosaic.Lib.Pipeline.Value

set_option maxRecDepth 16384

noncomputable section

namespace Cert.PickLoss.Pieces

open Idealize.ShloMosaic Idealize.ShloMosaic.TcCoe
open Idealize.SL Idealize.SL.Sem
open Cert.KernelIdeal Cert.KernelIdeal.Gen

variable {F : FTy → Type} [FloatOps F]

/-- The offsets of a whole-block access are zero on both axes. -/
theorem zero_off : (![0, 0] : Fin 2 → Nat) = fun _ => 0 := by
  funext a; match a with | ⟨0, _⟩ => rfl | ⟨1, _⟩ => rfl

/-- First tile of a row block: the accumulator ends at the update over the reset value. -/
theorem acc_first (c : Dev nD) (i : grid0.Coords) (arg2 : Memref sig .tc .vmem S256x3200 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (hc0 : cond0_0 i) (hc1 : ¬cond0_1 i)
    (x0 : Vec F S256x3200 .f32) (x1 : Vec F S256x1 .i32) (x2 : Vec F S256x1 .f32) :
    sout0_A_0 c i arg2 harg2 arg3 harg3 arg4 harg4 arg5 harg5 arg6 harg6 hc0 hc1 x0 x1 x2 = k0_pay2 i x1 x0 (k0_pay1 (F := F)) x2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x1) zero_off]
  simp only [View.readAt_eq_ld, harg2.read_unread, harg3.read_unread, harg4.read_unread, harg6.read_unread,
    View.readCov_unit_zero (S := S256x1) _ zero_off, View.ld_unit_zero (S := S256x1) zero_off, View.ld_unit_zero (S := S256x3200) zero_off]

/-- A middle tile: the accumulator ends at the update over what the tile before left. -/
theorem acc_middle (c : Dev nD) (i : grid0.Coords) (arg2 : Memref sig .tc .vmem S256x3200 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : ¬cond0_1 i)
    (x0 : Vec F S256x3200 .f32) (x1 : Vec F S256x1 .i32) (x2 : Vec F S256x1 .f32) (xs0 : Vec F S256x1 .f32) :
    sout0_B_0 c i arg2 harg2 arg3 harg3 arg4 harg4 arg5 harg5 arg6 harg6 hc0 hc1 x0 x1 x2 xs0 = k0_pay2 i x1 x0 xs0 x2 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero zero_off]
  simp only [View.readAt_eq_ld, harg2.read_unread, harg3.read_unread, harg4.read_unread, harg6.read_unread,
    View.ld_unit_zero (S := S256x1) zero_off, View.ld_unit_zero (S := S256x3200) zero_off]

/-- The last tile: the accumulator ends at the update over what the tile before left, -/
theorem acc_last (c : Dev nD) (i : grid0.Coords) (arg2 : Memref sig .tc .vmem S256x3200 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : cond0_1 i)
    (x0 : Vec F S256x3200 .f32) (x1 : Vec F S256x1 .i32) (x2 : Vec F S256x1 .f32) (xs0 : Vec F S256x1 .f32) :
    sout0_C_0 c i arg2 harg2 arg3 harg3 arg4 harg4 arg5 harg5 arg6 harg6 hc0 hc1 x0 x1 x2 xs0 = k0_pay2 i x1 x0 xs0 x2 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zero_off]
  simp only [View.readAt_eq_ld, harg2.read_unread, harg3.read_unread, harg4.read_unread, harg6.read_unread,
    View.ld_unit_zero (S := S256x1) zero_off, View.ld_unit_zero (S := S256x3200) zero_off]

/-- and the output block holds the same term: the accumulator read back after that store. -/
theorem out_last (c : Dev nD) (i : grid0.Coords) (arg2 : Memref sig .tc .vmem S256x3200 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : cond0_1 i)
    (x0 : Vec F S256x3200 .f32) (x1 : Vec F S256x1 .i32) (x2 : Vec F S256x1 .f32) (xs0 : Vec F S256x1 .f32) :
    out0_C_3 c i arg2 harg2 arg3 harg3 arg4 harg4 arg5 harg5 arg6 harg6 hc0 hc1 x0 x1 x2 xs0 = k0_pay2 i x1 x0 xs0 x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero zero_off, View.readCov_unit_zero (S := S256x1) _ zero_off]
  simp only [View.readAt_eq_ld, harg2.read_unread, harg3.read_unread, harg4.read_unread, harg6.read_unread,
    View.ld_unit_zero (S := S256x1) zero_off, View.ld_unit_zero (S := S256x3200) zero_off]

end Cert.PickLoss.Pieces

end
-- ==== Proof.LibKeepdims.lean ====
/-
  Column layouts read at an index: a vector [a] viewed as a column [a, 1], a column [a, 1] viewed as a
  vector [a], and a column [a, 1] broadcast along rows to [a, b] (what a reduction with kept dimensions
  produces and consumes). Each reads the operand at the row coordinate, the unit coordinate being 0.
-/
import Idealize.ShloMosaic.Lib.ValueIdx
import Idealize.ShloMosaic.Lib.ValueLayout
import Idealize.ShloMosaic.Lib.Pipeline.Value

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Blocks.lean ====
/-
  The blocks the body sees, as entries of the argument arrays.

  The grid has 32 × 10 points; point `t` is row block `t / 10` and column tile `t % 10`.  The probabilities' block at
  `t` is rows `256·(t/10) …` and columns `3200·(t%10) …` of the table; the labels' and rewards' blocks are rows
  `256·(t/10) …` of the columns `[8192, 1]` the program makes from the two vectors before the region, and entry
  `(n, 0)` of such a column is entry `n` of the vector.
-/
import proofs.«409961_j52321291600268_1_alg».proof.Proof.Gen.KernelIdeal.Frame
import proofs.«409961_j52321291600268_1_alg».proof.Proof.Spec
import proofs.«409961_j52321291600268_1_alg».proof.Proof.LibKeepdims
import Idealize.ShloMosaic.Lib.Pipeline.Value
import Idealize.ShloMosaic.Lib.StableHlo.Run

set_option maxRecDepth 16384

noncomputable section

namespace Cert.PickLoss.Blocks

open Idealize.ShloMosaic Idealize.ShloMosaic.TcCoe
open Idealize.SL Idealize.SL.Sem
open Cert.KernelIdeal Cert.KernelIdeal.Gen
open Idealize.ShloMosaic.ValueIdx Idealize.ShloMosaic.StableHlo

variable (m : (ℓ : Loc nD τ sig) → Buf (Elt Ideal) ℓ)

/-- The three argument arrays as launched. -/
abbrev probs (c : Dev nD) : S8192x32000.Idx → EReal := m ((c : Thread nD τ).loc main_arg0)
abbrev labels (c : Dev nD) : S8192.Idx → BitVec 32 := m ((c : Thread nD τ).loc main_arg1)
abbrev rewards (c : Dev nD) : S8192.Idx → EReal := m ((c : Thread nD τ).loc main_arg2)

/-- The three arrays the region reads, as it finds them: the table, and the labels and rewards as columns. -/
abbrev parr (c : Dev nD) : S8192x32000.Idx → EReal := V m c main_arg0
abbrev larr (c : Dev nD) : S8192x1.Idx → BitVec 32 := V m c main_v0
abbrev rarr (c : Dev nD) : S8192x1.Idx → EReal := V m c main_v1

/-- Their blocks at a grid point. -/
abbrev pblk (c : Dev nD) (t : Fin cfg0.N) : S256x3200.Idx → EReal := iblk m c 0 t
abbrev lblk (c : Dev nD) (t : Fin cfg0.N) : S256x1.Idx → BitVec 32 := iblk m c 1 t
abbrev rblk (c : Dev nD) (t : Fin cfg0.N) : S256x1.Idx → EReal := iblk m c 2 t

theorem lt_320 (t : Fin cfg0.N) : t.val < 320 := lt_of_lt_of_eq t.isLt (show cfg0.N = 320 from N_0)

/-- The printed index maps and the column-tile coordinate, decided over the grid. -/
theorem idx_facts : ∀ t : Fin cfg0.N,
    win0_0.index t (0 : Fin 2) = t.val / 10 ∧ win0_0.index t (1 : Fin 2) = t.val % 10
    ∧ win0_1.index t (0 : Fin 2) = t.val / 10 ∧ win0_1.index t (1 : Fin 2) = 0
    ∧ win0_2.index t (0 : Fin 2) = t.val / 10 ∧ win0_2.index t (1 : Fin 2) = 0
    ∧ win0_3.index t (0 : Fin 2) = t.val / 10 ∧ win0_3.index t (1 : Fin 2) = 0
    ∧ (grid0.coords t 1).val = t.val % 10 :=
  (by decide +kernel : ∀ t : Fin grid0.N, _)

/-- The row of the table that row `q` of point `t`'s blocks is. -/
def rowOf (t : Fin cfg0.N) (q : Fin 256) : Fin 8192 := ⟨256 * (t.val / 10) + q.val, by have := lt_320 t; omega⟩

/-- The probabilities' block at a row and lane: the table at that row and at column `3200·(t%10) + lane`. -/
theorem pblk_apply (c : Dev nD) (t : Fin cfg0.N) (q : Fin 256) (k : Fin 3200) :
    pblk m c t (ix2 q k) = parr m c (ix2 (rowOf t q) (⟨3200 * (t.val % 10) + k.val, by omega⟩ : Fin 32000)) := by
  obtain ⟨e0, e1, -⟩ := idx_facts t
  show V m c main_arg0 (((cfg0.win 0).blk t).view.emb (ix2 q k)) = V m c main_arg0 _
  congr 1
  funext a; apply Fin.ext
  match a with
  | ⟨0, _⟩ => show win0_0.index t (0 : Fin 2) * 256 + 1 * q.val = 256 * (t.val / 10) + q.val; omega
  | ⟨1, _⟩ => show win0_0.index t (1 : Fin 2) * 3200 + 1 * k.val = 3200 * (t.val % 10) + k.val; omega

/-- The labels' block at a row: the labels' column at that row. -/
theorem lblk_apply (c : Dev nD) (t : Fin cfg0.N) (q : Fin 256) :
    lblk m c t (ix2 q (0 : Fin 1)) = larr m c (ix2 (rowOf t q) (0 : Fin 1)) := by
  obtain ⟨-, -, e0, e1, -⟩ := idx_facts t
  show V m c main_v0 (((cfg0.win 1).blk t).view.emb (ix2 q (0 : Fin 1))) = V m c main_v0 _
  congr 1
  funext a; apply Fin.ext
  match a with
  | ⟨0, _⟩ => show win0_1.index t (0 : Fin 2) * 256 + 1 * q.val = 256 * (t.val / 10) + q.val; omega
  | ⟨1, _⟩ => show win0_1.index t (1 : Fin 2) * 1 + 1 * 0 = 0; omega

/-- The rewards' block at a row: the rewards' column at that row. -/
theorem rblk_apply (c : Dev nD) (t : Fin cfg0.N) (q : Fin 256) :
    rblk m c t (ix2 q (0 : Fin 1)) = rarr m c (ix2 (rowOf t q) (0 : Fin 1)) := by
  obtain ⟨-, -, -, -, e0, e1, -⟩ := idx_facts t
  show V m c main_v1 (((cfg0.win 2).blk t).view.emb (ix2 q (0 : Fin 1))) = V m c main_v1 _
  congr 1
  funext a; apply Fin.ext
  match a with
  | ⟨0, _⟩ => show win0_2.index t (0 : Fin 2) * 256 + 1 * q.val = 256 * (t.val / 10) + q.val; omega
  | ⟨1, _⟩ => show win0_2.index t (1 : Fin 2) * 1 + 1 * 0 = 0; omega

/-- The table reaches the region as launched. -/
theorem parr_eq (c : Dev nD) : parr m c = probs m c := V_main_arg0 m c

/-- The labels' column is the labels' vector, entry by entry. -/
theorem larr_apply (c : Dev nD) (n : Fin 8192) : larr m c (ix2 n (0 : Fin 1)) = labels m c (ix1 n) := by
  have e : (V m c main_v0 : S8192x1.Idx → BitVec 32)
      = shapeCast S8192x1 (labels m c) Facts₀.shapeCasts_S8192_S8192x1 := by
    show StableHlo.after hostOps0 (fun b => m (c, b)) (Proc.devRef .tc main_v0) = _
    after_results; rfl
  show (V m c main_v0 : S8192x1.Idx → BitVec 32) (ix2 n (0 : Fin 1)) = _
  rw [e]
  exact shapeCast_a_a1_apply _ _ n 0

/-- The rewards' column is the rewards' vector, entry by entry. -/
theorem rarr_apply (c : Dev nD) (n : Fin 8192) : rarr m c (ix2 n (0 : Fin 1)) = rewards m c (ix1 n) := by
  have e : (V m c main_v1 : S8192x1.Idx → EReal)
      = shapeCast S8192x1 (rewards m c) Facts₀.shapeCasts_S8192_S8192x1 := by
    show StableHlo.after hostOps0 (fun b => m (c, b)) (Proc.devRef .tc main_v1) = _
    after_results; rfl
  show (V m c main_v1 : S8192x1.Idx → EReal) (ix2 n (0 : Fin 1)) = _
  rw [e]
  exact shapeCast_a_a1_apply _ _ n 0

end Cert.PickLoss.Blocks

end
-- ==== Proof.BodyRow.lean ====
/-
  What one grid point's body adds to a row of the accumulator.

  At grid point `i` the body sees the tile of probabilities with columns `3200·(i 1) … 3200·(i 1) + 3199`, the block's
  labels and rewards (columns `[256, 1]`), and the accumulator.  It forms the column numbers of the tile (a lane count
  plus `3200·(i 1)`), keeps a probability where its column number equals the row's label and zero elsewhere, sums each
  row of the tile, multiplies by the row's reward and adds the accumulator.  A label `l < 32000` equals at most one column
  number of the tile — column `l - 3200·(i 1)`, when `l` lies in the tile — so the row sum is that one probability, or zero.
-/
import proofs.«409961_j52321291600268_1_alg».proof.Proof.Gen.KernelIdeal.Skeleton
import proofs.«409961_j52321291600268_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.PickLoss.Body

open Idealize.ShloMosaic Idealize.ShloMosaic.ValueIdx Cert.KernelIdeal Cert.KernelIdeal.Gen

/-- The value the accumulator is reset to is zero in every row. -/
theorem reset_row [Cert.KernelIdeal.Facts] (q : Fin 256) :
    (k0_pay1 (F := Ideal) : S256x1.Idx → EReal) (ix2 q (0 : Fin 1)) = 0 := by
  unfold k0_pay1
  rw [shapeCast_self]
  exact Ideal.ofBits_zero_f32

/-- The column number of the tile at `(q, c)`, for `j < 10`: the lane count `c` plus the word `j · 3200`; the 32-bit
    sum and product do not wrap, `c + 3200·j` being below `32000`. -/
private theorem col_word (j : Nat) (hj : j < 10) (h : S256x3200.Iotas .tc 32 [1]) (q : Fin 256) (c : Fin 3200) :
    addi (iota .tc S256x3200 32 [1] h) (broadcast S256x3200 (Scalar.muli (BitVec.ofNat 32 j) 3200#32)) (ix2 q c)
      = BitVec.ofNat 32 (c.val + 3200 * j) := by
  show IntOp.addi (iota .tc S256x3200 32 [1] h (ix2 q c)) (IntOp.muli (BitVec.ofNat 32 j) 3200#32) = _
  rw [iota_single_apply]
  show BitVec.ofNat 32 c.val + BitVec.ofNat 32 j * 3200#32 = _
  apply BitVec.eq_of_toNat_eq
  have hc := c.isLt
  simp only [BitVec.toNat_add, BitVec.toNat_mul, BitVec.toNat_ofNat]
  omega

/-- A word `w` below `32000` equals at most one column number `c + 3200·j` of the tile, `c = w - 3200·j`, and only when
    `3200·j ≤ w < 3200·j + 3200`: a sum over the lanes that keeps `f c` where the column number equals `w` and zero
    elsewhere is that one `f c`, or zero. -/
private theorem pick_one (w : BitVec 32) (hw : w.toNat < 32000) (j : Nat) (hj : j < 10) (f : Fin 3200 → EReal) :
    ∑ c : Fin 3200, Scalar.select (IntOp.cmpi .eq (BitVec.ofNat 32 (c.val + 3200 * j)) w) (f c) (0 : EReal)
      = if h : 3200 * j ≤ w.toNat ∧ w.toNat < 3200 * j + 3200 then f ⟨w.toNat - 3200 * j, by omega⟩ else 0 := by
  -- one lane: the words are equal exactly when the numbers are, both being below 2 ^ 32
  have hterm : ∀ c : Fin 3200, Scalar.select (IntOp.cmpi .eq (BitVec.ofNat 32 (c.val + 3200 * j)) w) (f c) (0 : EReal)
      = if c.val + 3200 * j = w.toNat then f c else 0 := by
    intro c
    have hc := c.isLt
    have hiff : (IntOp.cmpi .eq (BitVec.ofNat 32 (c.val + 3200 * j)) w = 1#1) ↔ c.val + 3200 * j = w.toNat := by
      rw [StableHlo.Predicate.cmpi_eq_iff]
      constructor
      · intro h; rw [← h, BitVec.toNat_ofNat]; omega
      · intro h; apply BitVec.eq_of_toNat_eq; rw [BitVec.toNat_ofNat]; omega
    unfold Scalar.select
    by_cases h : c.val + 3200 * j = w.toNat
    · exact (if_pos (hiff.mpr h)).trans (if_pos h).symm
    · exact (if_neg (fun h' => h (hiff.mp h'))).trans (if_neg h).symm
  simp only [hterm]
  split
  · next h =>
    -- the label lies in the tile: only lane `w - 3200·j` contributes
    rw [Finset.sum_eq_single (⟨w.toNat - 3200 * j, by omega⟩ : Fin 3200)]
    · rw [if_pos]; show w.toNat - 3200 * j + 3200 * j = w.toNat; omega
    · intro c _ hne
      rw [if_neg]
      intro h'
      apply hne
      apply Fin.ext
      show c.val = w.toNat - 3200 * j
      omega
    · intro h'; exact absurd (Finset.mem_univ _) h'
  · next h =>
    -- the label lies outside the tile: no lane contributes
    apply Finset.sum_eq_zero
    intro c _
    have hc := c.isLt
    rw [if_neg]
    omega

/-- The sum of a `[256, 3200]` array over its second axis, read at row `q`: the sum over the lanes `c` of the entry
    `(q, c)` (the initial word is the zero of addition). -/
private theorem lane_sum (src : FVec Ideal S256x3200 .f32) (h : S256x3200.Reduces [1] S256) (hφ : FKind.Formats .f32)
    (hacc : (0x00000000#32 : BitVec 32) = FKind.add.neutral .f32 hφ) (q : Fin 256) :
    multiReduction .add [1] S256 src 0x00000000#32 h hφ hacc (ix1 q) = ∑ c : Fin 3200, src (ix2 q c) := by
  refine (Ideal.multiReduction_add_single src _ h hφ hacc (ix1 q)).trans ?_
  show ∑ c : Fin 3200, src (h.lift (ix1 q) c) = _
  -- row `q` with lane `c` inserted on axis 1 is the index `(q, c)`
  refine Finset.sum_congr rfl fun c _ => congrArg src ?_
  funext a
  match a with
  | ⟨0, _⟩ => rfl
  | ⟨1, _⟩ => rfl

/-- Row `q` after the body at grid point `i`: the accumulator's entry plus (the probability at the labelled column if
    the label lies in this point's tile, else zero) times the row's reward. -/
theorem update_row [Cert.KernelIdeal.Facts] (i : grid0.Coords) (lab : S256x1.Idx → BitVec 32) (pr : S256x3200.Idx → EReal)
    (acc rew : S256x1.Idx → EReal) (q : Fin 256) (hlab : (lab (ix2 q (0 : Fin 1))).toNat < 32000) :
    (k0_pay2 (F := Ideal) i lab pr acc rew : S256x1.Idx → EReal) (ix2 q (0 : Fin 1))
      = acc (ix2 q (0 : Fin 1))
        + (if h : 3200 * (i 1).val ≤ (lab (ix2 q (0 : Fin 1))).toNat ∧ (lab (ix2 q (0 : Fin 1))).toNat < 3200 * (i 1).val + 3200
            then pr (ix2 q (⟨(lab (ix2 q (0 : Fin 1))).toNat - 3200 * (i 1).val, by omega⟩ : Fin 3200)) else 0)
          * rew (ix2 q (0 : Fin 1)) := by
  have hj : (i 1).val < 10 := (i 1).isLt
  unfold k0_pay2
  -- the casts `[256, 1] → [256, 1]` are the identity
  simp only [shapeCast_self]
  rw [addf_apply, mulf_apply, shapeCast_a_a1_apply]
  refine congrArg (fun x => acc (ix2 q (0 : Fin 1)) + x * rew (ix2 q (0 : Fin 1))) ?_
  -- the row sum, lane by lane, is the sum `pick_one` evaluates
  refine (lane_sum _ _ _ _ q).trans ?_
  refine Eq.trans ?_ (pick_one (lab (ix2 q (0 : Fin 1))) hlab (i 1).val hj (fun c => pr (ix2 q c)))
  refine Finset.sum_congr rfl fun c _ => ?_
  rw [select_apply]
  show Scalar.select (IntOp.cmpi .eq
      (addi (iota .tc S256x3200 32 [1] iota_S256x3200_d1_w32)
        (broadcast S256x3200 (Scalar.muli (BitVec.ofNat 32 (i 1).val) 3200#32)) (ix2 q c))
      (broadcastTo S256x3200 lab broadcasts_S256x1_S256x3200 (ix2 q c)))
    (pr (ix2 q c)) (Ideal.ofBits .f32 0x00000000#32) = _
  rw [col_word _ hj, broadcastTo_a1_ab_apply, Ideal.ofBits_zero_f32]

end Cert.PickLoss.Body

end
-- ==== Proof.Accum.lean ====
/-
  The accumulator after every grid point, in closed form.

  Fix a row `n = 256·(t/10) + q` of the table and let `l` be its label, a column below 32000.  The ten column tiles of
  the row block are visited in order, and tile `j` adds `p[n, l] · r n` to the row's accumulator exactly when
  `3200·j ≤ l < 3200·j + 3200`, and adds `0 · r n = 0` otherwise.  The accumulator is reset to zero at tile 0.  So
  after tile `j` it holds `p[n, l] · r n` if `l < 3200·j + 3200` and `0` if not; after tile 9, where `l < 32000` always
  holds, it holds `p[n, l] · r n`, and that is what the last tile copies into the output block.
-/
import proofs.«409961_j52321291600268_1_alg».proof.Proof.Pieces
import proofs.«409961_j52321291600268_1_alg».proof.Proof.Blocks
import proofs.«409961_j52321291600268_1_alg».proof.Proof.BodyRow

set_option maxRecDepth 16384

noncomputable section

namespace Cert.PickLoss.Accum

open Idealize.ShloMosaic Idealize.ShloMosaic.TcCoe
open Idealize.SL Idealize.SL.Sem
open Cert.KernelIdeal Cert.KernelIdeal.Gen
open Idealize.ShloMosaic.ValueIdx
open Cert.PickLoss Cert.PickLoss.Blocks Cert.PickLoss.Pieces Cert.PickLoss.Body

variable (m : (ℓ : Loc nD τ sig) → Buf (Elt Ideal) ℓ)

/-- Row `n`'s contribution over the arrays as launched. -/
abbrev term (c : Dev nD) (n : Fin 8192) : EReal := rowTerm (probs m c) (labels m c) (rewards m c) n

/-- The label of the table's row that row `q` of point `t`'s blocks is, as a natural number. -/
abbrev labelAt (c : Dev nD) (t : Fin cfg0.N) (q : Fin 256) : ℕ := (labels m c (ix1 (rowOf t q))).toNat

theorem lblk_label (c : Dev nD) (t : Fin cfg0.N) (q : Fin 256) :
    lblk m c t (ix2 q (0 : Fin 1)) = labels m c (ix1 (rowOf t q)) := by
  rw [lblk_apply, larr_apply]

/-- WHAT A POINT ADDS TO A ROW: the row's contribution when its label lies in the point's tile, else nothing. -/
theorem step_row (c : Dev nD) (hR : InRange (labels m c)) (t : Fin cfg0.N) (q : Fin 256) (prev : S256x1.Idx → EReal) :
    (k0_pay2 (F := Ideal) (grid0.coords t) (lblk m c t) (pblk m c t) prev (rblk m c t) : S256x1.Idx → EReal) (ix2 q (0 : Fin 1))
      = prev (ix2 q (0 : Fin 1))
        + (if 3200 * (t.val % 10) ≤ labelAt m c t q ∧ labelAt m c t q < 3200 * (t.val % 10) + 3200
            then term m c (rowOf t q) else 0) := by
  have hl : lblk m c t (ix2 q (0 : Fin 1)) = labels m c (ix1 (rowOf t q)) := lblk_label m c t q
  have hl' : (lblk m c t (ix2 q (0 : Fin 1))).toNat = labelAt m c t q := congrArg BitVec.toNat hl
  have hlt : labelAt m c t q < 32000 := hR (rowOf t q)
  have hj : (grid0.coords t 1).val = t.val % 10 := (idx_facts t).2.2.2.2.2.2.2.2
  refine (update_row (grid0.coords t) (lblk m c t) (pblk m c t) prev (rblk m c t) q (by rw [hl']; exact hlt)).trans ?_
  congr 1
  by_cases h : 3200 * (t.val % 10) ≤ labelAt m c t q ∧ labelAt m c t q < 3200 * (t.val % 10) + 3200
  · rw [if_pos h, dif_pos (by rw [hl', hj]; exact h)]
    rw [pblk_apply, parr_eq, rblk_apply, rarr_apply]
    show _ = probs m c (ix2 (rowOf t q) (colOf (labels m c) (rowOf t q))) * rewards m c (ix1 (rowOf t q))
    congr 2
    funext a; apply Fin.ext
    match a with
    | ⟨0, _⟩ => rfl
    | ⟨1, _⟩ =>
      show 3200 * (t.val % 10) + ((lblk m c t (ix2 q (0 : Fin 1))).toNat - 3200 * (grid0.coords t 1).val)
        = min (labels m c (ix1 (rowOf t q))).toNat 31999
      rw [hl', hj]
      have : (labels m c (ix1 (rowOf t q))).toNat = labelAt m c t q := rfl
      omega
  · rw [if_neg h, dif_neg (by rw [hl', hj]; exact h), zero_mul]

/-- THE ACCUMULATOR AFTER POINT `t`, row by row: the row's contribution once its label's tile has been passed. -/
theorem acc_inv (c : Dev nD) (hR : InRange (labels m c)) : ∀ (n : ℕ) (t : Fin cfg0.N), t.val = n → ∀ q : Fin 256,
    ((outsAt0 m c t.val t.isLt).2 : S256x1.Idx → EReal) (ix2 q (0 : Fin 1))
      = if labelAt m c t q < 3200 * (t.val % 10) + 3200 then term m c (rowOf t q) else 0 := by
  intro n
  induction n using Nat.strong_induction_on with
  | _ n ih =>
    intro t ht q
    have hN := lt_320 t
    by_cases h0 : t.val % 10 = 0
    · have h1 : ¬t.val % 10 = 9 := by omega
      rw [outsAt0_A m c t h0 h1]
      dsimp only
      refine (congrFun (acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 q (0 : Fin 1))).trans ?_
      refine (step_row m c hR t q (k0_pay1 (F := Ideal))).trans ?_
      rw [reset_row q, zero_add, h0]
      exact if_congr (by omega) rfl rfl
    · have hpos : 0 < t.val := by omega
      have hlt : t.val - 1 < cfg0.N := Nat.lt_of_le_of_lt (Nat.sub_le _ _) t.isLt
      have hrow : rowOf (⟨t.val - 1, hlt⟩ : Fin cfg0.N) q = rowOf t q := by
        apply Fin.ext; show 256 * ((t.val - 1) / 10) + q.val = 256 * (t.val / 10) + q.val; omega
      have ihp : ((outsAt0 m c (t.val - 1) hlt).2 : S256x1.Idx → EReal) (ix2 q (0 : Fin 1))
          = if labelAt m c t q < 3200 * ((t.val - 1) % 10) + 3200 then term m c (rowOf t q) else 0 := by
        have := ih (t.val - 1) (by omega) (⟨t.val - 1, hlt⟩ : Fin cfg0.N) rfl q
        rw [show labelAt m c (⟨t.val - 1, hlt⟩ : Fin cfg0.N) q = labelAt m c t q from by unfold labelAt; rw [hrow], hrow] at this
        exact this
      have hstep := step_row m c hR t q (outsAt0 m c (t.val - 1) hlt).2
      have hfin : ((outsAt0 m c (t.val - 1) hlt).2 : S256x1.Idx → EReal) (ix2 q (0 : Fin 1))
            + (if 3200 * (t.val % 10) ≤ labelAt m c t q ∧ labelAt m c t q < 3200 * (t.val % 10) + 3200
                then term m c (rowOf t q) else 0)
          = if labelAt m c t q < 3200 * (t.val % 10) + 3200 then term m c (rowOf t q) else 0 := by
        rw [ihp]
        split_ifs <;> first | (exfalso; omega) | simp
      by_cases h1 : t.val % 10 = 9
      · rw [outsAt0_C m c t h0 h1]
        dsimp only
        refine (congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) hlt).2) (ix2 q (0 : Fin 1))).trans ?_
        exact hstep.trans hfin
      · rw [outsAt0_B m c t h0 h1]
        dsimp only
        refine (congrFun (acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) hlt).2) (ix2 q (0 : Fin 1))).trans ?_
        exact hstep.trans hfin

/-- THE OUTPUT BLOCK at a row block's last tile: each row's contribution. -/
theorem out_row (c : Dev nD) (hR : InRange (labels m c)) (t : Fin cfg0.N) (h9 : t.val % 10 = 9) (q : Fin 256) :
    ((outsAt0 m c t.val t.isLt).1 : S256x1.Idx → EReal) (ix2 q (0 : Fin 1)) = term m c (rowOf t q) := by
  have hN := lt_320 t
  have h0 : ¬t.val % 10 = 0 := by omega
  have hlt : t.val - 1 < cfg0.N := Nat.lt_of_le_of_lt (Nat.sub_le _ _) t.isLt
  have hacc := acc_inv m c hR t.val t rfl q
  rw [outsAt0_C m c t h0 h9] at hacc
  dsimp only at hacc
  rw [outsAt0_C m c t h0 h9]
  dsimp only
  refine (congrFun (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h9) (iblk m c 0 t) (iblk m c 1 t) (iblk m c 2 t) (outsAt0 m c (t.val - 1) hlt).2) (ix2 q (0 : Fin 1))).trans ?_
  refine ((congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h9) (iblk m c 0 t) (iblk m c 1 t) (iblk m c 2 t) (outsAt0 m c (t.val - 1) hlt).2) (ix2 q (0 : Fin 1))).symm.trans hacc).trans ?_
  have hl : labelAt m c t q < 32000 := hR (rowOf t q)
  exact if_pos (by omega)

end Cert.PickLoss.Accum

end
-- ==== Proof.Final.lean ====
/-
  The output array after the region: every row's contribution.

  The output's block is written back at the last column tile of each row block, `t % 10 = 9`, and block `t / 10` is
  rows `256·(t/10) … 256·(t/10) + 255` of the `[8192, 1]` output.  What such a point writes back is, row by row, the
  row's contribution, so it is its block of the one column `n ↦ p[n, l n] · r n`; the 32 blocks tile the output
  (row `n` lies in the block of point `10·(n / 256) + 9`); hence the output array ends at that column.
-/
import proofs.«409961_j52321291600268_1_alg».proof.Proof.Accum

set_option maxRecDepth 16384

noncomputable section

namespace Cert.PickLoss.Final

open Idealize.ShloMosaic Idealize.ShloMosaic.TcCoe
open Idealize.SL Idealize.SL.Sem
open Cert.KernelIdeal Cert.KernelIdeal.Gen
open Idealize.ShloMosaic.ValueIdx
open Cert.PickLoss Cert.PickLoss.Blocks Cert.PickLoss.Accum

variable (m : (ℓ : Loc nD τ sig) → Buf (Elt Ideal) ℓ)

/-- The column the output array ends at: row `n`'s contribution at `(n, 0)`. -/
def rows (c : Dev nD) : S8192x1.Idx → EReal := fun i => term m c ⟨(i 0).val, idx2_lt0 i⟩

theorem rows_apply (c : Dev nD) (n : Fin 8192) : rows m c (ix2 n (0 : Fin 1)) = term m c n := rfl

/-- WHAT A FLUSHING POINT WRITES BACK is its block of that column. -/
theorem flushed_eq (c : Dev nD) (hR : InRange (labels m c)) (t : Fin cfg0.N) (hf : (cfg0.win 3).flush t = true) :
    (dats m 0 c).flushed 3 t = ((cfg0.win 3).blk t).view.read (Elt Ideal) (rows m c) := by
  have h9 : t.val % 10 = 9 := (flush0_3 t).mp hf
  have e0 : win0_3.index t (0 : Fin 2) = t.val / 10 := (idx_facts t).2.2.2.2.2.2.1
  show (cfg0.win 3).cut (grid0.coords t) ((dats m 0 c).after 3 t) = _
  rw [after0_3]
  funext j
  show ((outsAt0 m c t.val t.isLt).1 : S256x1.Idx → EReal) j = rows m c (((cfg0.win 3).blk t).view.emb j)
  have hj : j = ix2 (⟨(j 0).val, (j 0).isLt⟩ : Fin 256) (0 : Fin 1) := by
    funext a; apply Fin.ext
    match a with
    | ⟨0, _⟩ => rfl
    | ⟨1, _⟩ => show (j 1).val = 0; have : (j 1).val < 1 := (j 1).isLt; omega
  rw [hj, out_row m c hR t h9]
  unfold rows
  congr 1
  apply Fin.ext
  show 256 * (t.val / 10) + (j 0).val = win0_3.index t (0 : Fin 2) * 256 + 1 * (j 0).val
  omega

/-- An index of the output lies in point `t`'s block iff each coordinate is in the block's range on its axis. -/
theorem mem_blk (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v2).slice (win0_3.rect t)).set ↔ _
  rw [View.set_slice_whole, Rect.mem_set_unit]
  exact Iff.rfl

/-- Every row of the output lies in the block of its row block's last tile. -/
theorem cover (i : S8192x1.Idx) : ∃ t : Fin cfg0.N, (cfg0.win 3).flush t = true ∧ i ∈ ((cfg0.win 3).blk t).view.set := by
  have hi0 : (i 0).val < 8192 := idx2_lt0 i
  have hi1 : (i 1).val < 1 := idx2_lt1 i
  have hN : cfg0.N = 320 := N_0
  let t : Fin cfg0.N := ⟨10 * ((i 0).val / 256) + 9, by omega⟩
  have htv : t.val = 10 * ((i 0).val / 256) + 9 := rfl
  have e0 : win0_3.index t (0 : Fin 2) = t.val / 10 := (idx_facts t).2.2.2.2.2.2.1
  have e1 : win0_3.index t (1 : Fin 2) = 0 := (idx_facts t).2.2.2.2.2.2.2.1
  refine ⟨t, (flush0_3 t).mpr (by omega), ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1 ≤ (i 1).val ∧ (i 1).val < win0_3.index t (1 : Fin 2) * 1 + 1; omega

/-- THE OUTPUT ARRAY AFTER THE REGION. -/
theorem final (c : Dev nD) (hR : InRange (labels m c)) : (dats m 0 c).arrAt 3 cfg0.N = rows m c :=
  (dats m 0 c).arrAt_eq_of_cover 3 (rows m c) (fun t hf => flushed_eq m c hR t hf) cover

end Cert.PickLoss.Final

end
-- ==== Proof.KernelRun.lean ====
/-
  The kernel's program ends at the loss.

  After the region the program sums the `[8192, 1]` output from the zero word, divides by the word of 8192 and negates.
  The output array holds every row's contribution, so the sum is the zero word plus the sum of the contributions over
  the 8192 rows (a sum over the indices of a column is the sum over its rows), and the result is the loss as stated.
-/
import proofs.«409961_j52321291600268_1_alg».proof.Proof.Final
import Idealize.ShloMosaic.PureOps.Ideal.Laws
import Idealize.ShloMosaic.Lib.StableHlo.Run

set_option maxRecDepth 16384

noncomputable section

open scoped BigOperators

namespace Cert.PickLoss.KernelRun

open Idealize.ShloMosaic Idealize.ShloMosaic.TcCoe
open Idealize.SL Idealize.SL.Sem
open Cert.KernelIdeal Cert.KernelIdeal.Gen
open Idealize.ShloMosaic.ValueIdx Idealize.ShloMosaic.StableHlo
open Cert.PickLoss Cert.PickLoss.Blocks Cert.PickLoss.Accum Cert.PickLoss.Final

variable (m : (ℓ : Loc nD τ sig) → Buf (Elt Ideal) ℓ)

/-- The host's sum of the output column: the zero word plus the sum of the rows' contributions. -/
theorem total (c : Dev nD) (i : S_.Idx) :
    Host.reduceAdd (F := Ideal) (rows m c) (constant S_ .f32 0x00000000#32) Facts₀.reducesTo_S8192x1_S_d0_1 Facts₀.h_S_ i
      = FloatOps.ofBits (F := Ideal) .f32 0x00000000#32 + ∑ n : Fin 8192, term m c n := by
  simp only [Host.reduceAdd, Ideal.hostReduceAdd_def]
  refine (Ideal.hostReduceAdd_total Facts₀.reducesTo_S8192x1_S_d0_1 (fun b => b.elim0) (rows m c) _ i).trans ?_
  rw [sum_idx_col]
  rfl

/-- THE RESULT BUFFER after the host operations that follow the region. -/
theorem result (c : Dev nD) (hR : InRange (labels m c)) :
    Pipeline.afterTail₀ cfgs (dats m) 0 (V0 m) [hostOps1] c main_v5 = loss (probs m c) (labels m c) (rewards m c) := by
  unfold Pipeline.afterTail₀
  show StableHlo.after hostOps1 _ (Proc.devRef .tc main_v5) = _
  after_results
  have hX : Pipeline.withArrays (cfgs 0).spec c (V0 m c) (fun w => (dats m 0 c).arrAt w (cfgs 0).N) (Proc.devRef .tc main_v2)
      = rows m c := (Pipeline.withArrays_arr spec0 launch0.win.arr_inj c _ _ 3).trans (final m c hR)
  rw [hX]
  funext i
  show FloatOps.hostNegf (F := Ideal) (φ := .f32) (FloatOps.hostDivf (F := Ideal) (φ := .f32)
      (Host.reduceAdd (F := Ideal) (rows m c) (constant S_ .f32 0x00000000#32) Facts₀.reducesTo_S8192x1_S_d0_1 Facts₀.h_S_ i)
      (FloatOps.ofBits (F := Ideal) .f32 0x46000000#32)) = _
  rw [total]
  rfl

/-- THE KERNEL'S RUN: every weakly fair execution ends with the result buffer at the loss of the arrays as launched,
    and the three argument arrays unchanged. -/
theorem run (ρ : Dev nD → PrngReg) (hR : ∀ c : Dev nD, InRange (labels m c)) :
    θ_run defs (onTc (τ := τ) (main (F := Ideal))) ⟨m, fun _ => 0, ρ⟩ (fun r => ∀ c : Dev nD,
      r.2.mem ((c.tc : Thread nD τ).loc main_v5) = loss (probs m c) (labels m c) (rewards m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (result m c (hR c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.PickLoss.KernelRun

end
-- ==== Proof.lean ====
/-
  The kernel and its reference compute the same loss.

  Inputs: a table `p : [8192, 32000]` of probabilities, a label `t n` per row (a 32-bit word) and a reward `r n` per row.
  The precondition asks the floats finite and every label in `[0, 32000)`.  The loss is minus the mean over the rows of
  `p[n, t n] · r n` (Proof/Spec.lean).

  The reference picks `p[n, t n]` by a gather: with the label in range its negative-index wrap is not taken, its
  bounds test holds and the gather's clamp does nothing (Proof/RefValue.lean, over the generated reading of the
  reference's run).

  The kernel streams the table through `256 × 3200` tiles.  For each row of a tile it sums the entries whose column
  number equals the row's label — at most one entry, present exactly when the label lies in the tile (Proof/BodyRow.lean)
  —, multiplies by the reward and accumulates over the ten tiles of the row block; the accumulator is reset at the
  first tile and copied out at the last (Proof/Pieces.lean, Proof/Accum.lean).  Adding `0 · r n = 0` for the nine
  tiles that miss the label leaves `p[n, t n] · r n`, so the output column holds every row's contribution
  (Proof/Final.lean) and the sum, division and negation after the region give the loss (Proof/KernelRun.lean).
  No law used here needs finiteness: only `0 · x = 0`, `0 + x = x` and `x + 0 = x` on the extended reals.

  The three frames are the generated frame runs; the idealization rewrote nothing, so `preserves` is `True`.
-/
import proofs.«409961_j52321291600268_1_alg».proof.Defs
import proofs.«409961_j52321291600268_1_alg».proof.Proof.Gen.Kernel
import proofs.«409961_j52321291600268_1_alg».proof.Proof.Gen.Kernel.Skeleton
import proofs.«409961_j52321291600268_1_alg».proof.Proof.Gen.Kernel.Launch
import proofs.«409961_j52321291600268_1_alg».proof.Proof.Gen.Kernel.Points
import proofs.«409961_j52321291600268_1_alg».proof.Proof.Gen.Kernel.Frame
import proofs.«409961_j52321291600268_1_alg».proof.Proof.Gen.KernelIdeal
import proofs.«409961_j52321291600268_1_alg».proof.Proof.Gen.KernelIdeal.Skeleton
import proofs.«409961_j52321291600268_1_alg».proof.Proof.Gen.KernelIdeal.Launch
import proofs.«409961_j52321291600268_1_alg».proof.Proof.Gen.KernelIdeal.Points
import proofs.«409961_j52321291600268_1_alg».proof.Proof.Gen.KernelIdeal.Frame
import proofs.«409961_j52321291600268_1_alg».proof.Proof.Gen.ReferenceIdeal
import proofs.«409961_j52321291600268_1_alg».proof.Proof.Gen.Pre_finite_inputs
import proofs.«409961_j52321291600268_1_alg».proof.Proof.Gen.ReferenceIdeal.Run
import proofs.«409961_j52321291600268_1_alg».proof.Proof.Gen.ReferenceIdeal.Read
import proofs.«409961_j52321291600268_1_alg».proof.Proof.PreRange
import proofs.«409961_j52321291600268_1_alg».proof.Proof.RefValue
import proofs.«409961_j52321291600268_1_alg».proof.Proof.KernelRun
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the loss of those arguments. -/
theorem algebraic : Cert.algebraic_KernelIdeal_ReferenceIdeal := by
  intro m ρ m' ρ' hpre hagree
  have hR : ∀ c : Dev Cert.KernelIdeal.nD, Cert.PickLoss.InRange (Cert.PickLoss.Blocks.labels m c) :=
    fun c => Cert.PickLoss.inRange_of_pre _ _ _ (hpre c)
  refine ⟨fun c => Cert.PickLoss.loss (Cert.PickLoss.Blocks.probs m c) (Cert.PickLoss.Blocks.labels m c) (Cert.PickLoss.Blocks.rewards m c),
    Cert.PickLoss.KernelRun.run m ρ hR, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v6_eq _ _ _).trans (Cert.PickLoss.Ref.value _ _ _ (hR c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
